-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S8192x512 .f32) (main_arg1 : FVec F S8192x512 .f32) (main_arg2 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S8192x512 : Shape := ⟨2, ![8192, 512]⟩
abbrev S512 : Shape := ⟨1, ![512]⟩
abbrev S1x512 : Shape := ⟨2, ![1, 512]⟩
abbrev S512x8192 : Shape := ⟨2, ![512, 8192]⟩
abbrev S8192x8192 : Shape := ⟨2, ![8192, 8192]⟩
abbrev S2048x512 : Shape := ⟨2, ![2048, 512]⟩
abbrev S512x1024 : Shape := ⟨2, ![512, 1024]⟩
abbrev S2048x1024 : Shape := ⟨2, ![2048, 1024]⟩
abbrev S2048 : Shape := ⟨1, ![2048]⟩
abbrev S2048x1 : Shape := ⟨2, ![2048, 1]⟩
abbrev S1024 : Shape := ⟨1, ![1024]⟩
abbrev S1x1024 : Shape := ⟨2, ![1, 1024]⟩

abbrev nBuf : Space → Nat
  | .hbm => 12
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S1x512, .f32⟩
  | .hbm, ⟨5, _⟩ => ⟨S8192x512, .f32⟩
  | .hbm, ⟨6, _⟩ => ⟨S8192x512, .f32⟩
  | .hbm, ⟨7, _⟩ => ⟨S1x512, .f32⟩
  | .hbm, ⟨8, _⟩ => ⟨S8192x512, .f32⟩
  | .hbm, ⟨9, _⟩ => ⟨S8192x512, .f32⟩
  | .hbm, ⟨10, _⟩ => ⟨S512x8192, .f32⟩
  | .hbm, ⟨11, _⟩ => ⟨S8192x8192, .f32⟩
  | .local _ .vmem, ⟨0, _⟩ => ⟨S2048x512, .f32⟩
  | .local _ .vmem, ⟨1, _⟩ => ⟨S2048x512, .f32⟩
  | .local _ .vmem, ⟨2, _⟩ => ⟨S512x1024, .f32⟩
  | .local _ .vmem, ⟨3, _⟩ => ⟨S512x1024, .f32⟩
  | .local _ .vmem, ⟨4, _⟩ => ⟨S2048x1024, .f32⟩
  | .local _ .vmem, ⟨5, _⟩ => ⟨S2048x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S8192x512_S512x8192_1_0 : S8192x512.Transposes [1, 0] S512x8192
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S2048x512_S2048 : S2048x512.Reduces [1] S2048
  shapeCasts_S2048_S2048x1 : S2048.ShapeCasts S2048x1
  reduces_S512x1024_S1024 : S512x1024.Reduces [0] S1024
  shapeCasts_S1024_S1x1024 : S1024.ShapeCasts S1x1024
  bitsLt_bf16_f32 : FTy.bits .bf16 < FTy.bits .f32
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x8192.size a
  hwx0_1 : ∀ i : grid0.Coords, EltTy.bits .f32 = 32 ∨ (Rect.block (s := S512x8192) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x8192.size a
  hwx0_2 : ∀ i : grid0.Coords, EltTy.bits .f32 = 32 ∨ (Rect.block (s := S8192x8192) S2048x1024.size (cc0_transform_2 i) (hinb0_2 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_v3) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S512 : Shape := ⟨1, ![512]⟩
abbrev S1x512 : Shape := ⟨2, ![1, 512]⟩
abbrev S_ : Shape := ⟨0, ![]⟩
abbrev S8192 : Shape := ⟨1, ![8192]⟩
abbrev S512x8192 : Shape := ⟨2, ![512, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 34
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S1x512, .f32⟩
  | .hbm, ⟨5, _⟩ => ⟨S8192x512, .f32⟩
  | .hbm, ⟨6, _⟩ => ⟨S8192x512, .f32⟩
  | .hbm, ⟨7, _⟩ => ⟨S1x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192, .f32⟩
  | .hbm, ⟨13, _⟩ => ⟨S8192x512, .f32⟩
  | .hbm, ⟨14, _⟩ => ⟨S_, .f32⟩
  | .hbm, ⟨15, _⟩ => ⟨S8192, .f32⟩
  | .hbm, ⟨16, _⟩ => ⟨S512x8192, .f32⟩
  | .hbm, ⟨17, _⟩ => ⟨S8192x8192, .f32⟩
  | .hbm, ⟨18, _⟩ => ⟨S8192x1, .f32⟩
  | .hbm, ⟨19, _⟩ => ⟨S1x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192x512_S8192_d1 : S8192x512.ReducesTo [1] S8192
  h_S_ : 0 < S_.numel
  transposes_S8192x512_S512x8192_1_0 : S8192x512.Transposes [1, 0] S512x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.Spec.lean ====
/-
  The squared distance between the rows of two scaled matrices, as one function of the two arrays.

  For xs, ys : [8192, 512] the entry (n, m) is
      (Σ_k xs(n,k)² + Σ_k ys(m,k)²) − 2 · Σ_k xs(n,k) · ys(m,k)
  over the extended reals, grouped exactly so (the two squared norms added first, the doubled cross term
  subtracted from their sum). `distT` is the same number read from the second matrix stored transposed, as
  [512, 8192]. Also here: the two column layouts a row-norm needs (a vector as a one-column matrix, and a
  one-column matrix repeated across columns), a one-axis sum of a rank-2 array read at its coordinates, and
  the identity max(d, 0) · 0 + d = d, which holds at every extended real because a product with zero is zero.
-/
import Idealize.ShloMosaic.PureOps.Ideal.Laws
import Idealize.ShloMosaic.Lib.ValueIdx
import Idealize.ShloMosaic.Lib.ValueLayout

noncomputable section

namespace Cert.Dist

open Idealize.ShloMosaic Idealize.ShloMosaic.ValueIdx

/-- The doubling factor, kept as its word: both programs spell it with the same pattern. -/
abbrev two : EReal := Ideal.ofBits .f32 0x40000000#32

/-- Entry (n, m) of the squared-distance matrix of xs and ys, both [8192, 512]. -/
def distAt (xs ys : (⟨2, ![8192, 512]⟩ : Shape).Idx → EReal) (n m : Fin 8192) : EReal :=
  ((∑ k : Fin 512, xs (ix2 n k) * xs (ix2 n k)) + (∑ k : Fin 512, ys (ix2 m k) * ys (ix2 m k)))
    - two * ∑ k : Fin 512, xs (ix2 n k) * ys (ix2 m k)

/-- The same entry with the second matrix given transposed, as [512, 8192]. -/
def distTAt (xs : (⟨2, ![8192, 512]⟩ : Shape).Idx → EReal) (ysT : (⟨2, ![512, 8192]⟩ : Shape).Idx → EReal) (n m : Fin 8192) : EReal :=
  ((∑ k : Fin 512, xs (ix2 n k) * xs (ix2 n k)) + (∑ k : Fin 512, ysT (ix2 k m) * ysT (ix2 k m)))
    - two * ∑ k : Fin 512, xs (ix2 n k) * ysT (ix2 k m)

/-- The squared-distance matrix as an array. -/
def dist (xs ys : (⟨2, ![8192, 512]⟩ : Shape).Idx → EReal) : (⟨2, ![8192, 8192]⟩ : Shape).Idx → EReal :=
  fun i => distAt xs ys (i 0) (i 1)

/-- The same array from the transposed second matrix. -/
def distT (xs : (⟨2, ![8192, 512]⟩ : Shape).Idx → EReal) (ysT : (⟨2, ![512, 8192]⟩ : Shape).Idx → EReal) :
    (⟨2, ![8192, 8192]⟩ : Shape).Idx → EReal :=
  fun i => distTAt xs ysT (i 0) (i 1)

theorem dist_ix2 (xs ys : (⟨2, ![8192, 512]⟩ : Shape).Idx → EReal) (n m : Fin 8192) :
    dist xs ys (ix2 n m) = distAt xs ys n m := rfl

theorem distT_ix2 (xs : (⟨2, ![8192, 512]⟩ : Shape).Idx → EReal) (ysT : (⟨2, ![512, 8192]⟩ : Shape).Idx → EReal) (n m : Fin 8192) :
    distT xs ysT (ix2 n m) = distTAt xs ysT n m := rfl

/-- Reading the second matrix through its transpose changes nothing: entry (k, m) of the transpose is entry (m, k). -/
theorem distTAt_transpose (xs ys : (⟨2, ![8192, 512]⟩ : Shape).Idx → EReal)
    (h : (⟨2, ![8192, 512]⟩ : Shape).Transposes [1, 0] ⟨2, ![512, 8192]⟩) (n m : Fin 8192) :
    distTAt xs (transpose ⟨2, ![512, 8192]⟩ [1, 0] ys h) n m = distAt xs ys n m := by
  have e : ∀ k : Fin 512, transpose ⟨2, ![512, 8192]⟩ [1, 0] ys h (ix2 k m) = ys (ix2 m k) :=
    fun k => transpose_ix2_apply ys h k m
  unfold distTAt distAt
  simp only [e]

theorem distT_transpose (xs ys : (⟨2, ![8192, 512]⟩ : Shape).Idx → EReal)
    (h : (⟨2, ![8192, 512]⟩ : Shape).Transposes [1, 0] ⟨2, ![512, 8192]⟩) :
    distT xs (transpose ⟨2, ![512, 8192]⟩ [1, 0] ys h) = dist xs ys :=
  funext fun i => distTAt_transpose xs ys h (i 0) (i 1)

/-- max(d, 0) · 0 + d = d at every extended real: the product with zero is zero, whatever the maximum is. -/
theorem clamp_times_zero_add (d : EReal) : max d 0 * 0 + d = d := by
  rw [mul_zero, zero_add]

/-! ## Column layouts -/

variable {α : Type}

/-- An [a] vector cast to a one-column [a, 1] matrix reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column [a, 1] matrix repeated across b columns reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A sum along one axis of a matrix -/

/-- The f32 sum along the second axis of an [a, b] array into the zero accumulator, read at row p: the sum over the row. -/
theorem sum_axis1_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun ax => Fin.ext (by
      match ax with
      | ⟨0, _⟩ => rfl
      | ⟨1, _⟩ => rfl)))

/-- The f32 sum along the first axis of an [a, b] array into the zero accumulator, read at column q: the sum over the column. -/
theorem sum_axis0_apply {a b : ℕ} (v : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ v 0x00000000#32 h hφ hacc (ix1 q) = ∑ k : Fin a, v (ix2 k q) :=
  (Ideal.multiReduction_add_single v 0x00000000#32 h hφ hacc (ix1 q)).trans
    (Finset.sum_congr rfl fun k _ => congrArg v (funext fun ax => Fin.ext (by
      match ax with
      | ⟨0, _⟩ => rfl
      | ⟨1, _⟩ => rfl)))

end Cert.Dist

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.Payload.lean ====
/-
  The kernel body's stored value at one entry of its output block.

  The body loads a [2048, 512] block A of the scaled first matrix and a [512, 1024] block B of the scaled,
  transposed second matrix, and stores, at entry (p, q) of the [2048, 1024] output block,
      (Σ_k A(p,k)² + Σ_k B(k,q)²) − 2 · Σ_k A(p,k) · B(k,q):
  the row norm is a sum along the second axis kept as a column and repeated across the block, the column norm a
  sum along the first axis kept as a row and repeated down the block, and the cross term the matrix product into
  a zero accumulator, whose narrowing of the operands to a shorter float format is the identity on the extended
  reals.
-/
import proofs.«146422_j3058016715341_1_alg».proof.Proof.Gen.KernelIdeal.Skeleton
import proofs.«146422_j3058016715341_1_alg».proof.Proof.Spec
import proofs.«146422_j3058016715341_1_alg».proof.Proof.LibPlainDot

noncomputable section

namespace Cert.Dist

open Idealize.ShloMosaic Idealize.ShloMosaic.ValueIdx Cert.KernelIdeal Cert.KernelIdeal.Gen

/-- Entry (p, q) of the stored block, from the two loaded blocks. -/
theorem pay_apply (A : Vec Ideal S2048x512 .f32) (B : Vec Ideal S512x1024 .f32) (p : Fin 2048) (q : Fin 1024) :
    k0_pay1 (F := Ideal) A B (ix2 p q)
      = ((∑ k : Fin 512, A (ix2 p k) * A (ix2 p k)) + (∑ k : Fin 512, B (ix2 k q) * B (ix2 k q)))
        - two * ∑ k : Fin 512, A (ix2 p k) * B (ix2 k q) := by
  unfold k0_pay1
  simp only [shapeCast_self]
  have hprod : matmul dot_S2048x512_S512x1024_S2048x1024_1_0_0_1_n_n none (truncf .bf16 A bitsLt_bf16_f32)
        (truncf .bf16 B bitsLt_bf16_f32) (constant (F := Ideal) S2048x1024 .f32 0x00000000#32) (ix2 p q)
      = ∑ k : Fin 512, A (ix2 p k) * B (ix2 k q) :=
    Cert.LibPlainDot.matmul_zero_apply dot_S2048x512_S512x1024_S2048x1024_1_0_0_1_n_n rfl rfl rfl rfl rfl rfl none
      (truncf .bf16 A bitsLt_bf16_f32) (truncf .bf16 B bitsLt_bf16_f32) p q
  rw [subf_apply, addf_apply, mulf_apply, broadcast_apply, broadcastTo_a1_ab_apply, shapeCast_a_a1_apply,
    sum_axis1_apply, broadcastTo_1b_ab_apply, shapeCast_a_1a_apply, sum_axis0_apply, hprod]
  rfl

end Cert.Dist

end
-- ==== Proof.Blocks.lean ====
/-
  From the kernel's blocks to its whole result array.

  The grid is 4 × 8. At point (i, j) the first input block is rows i·2048 … of the first staged array (all 512
  columns), the second input block is columns j·1024 … of the second staged array (all 512 rows), and the output block
  is rows i·2048 …, columns j·1024 … of the result. So what a point writes back is that block of ONE function of the two
  staged arrays, the squared-distance matrix read from a transposed second operand; the 32 blocks tile the
  [8192, 8192] result, and the array after the run is that function everywhere.
-/
import proofs.«146422_j3058016715341_1_alg».proof.Proof.Gen.KernelIdeal.Value
import proofs.«146422_j3058016715341_1_alg».proof.Proof.Payload

set_option maxRecDepth 16384

noncomputable section

namespace Cert.Dist

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- One entry of one block. If A is rows i·2048 … of xs and B is columns j·1024 … of ysT, then the body's stored
    value at block entry y is the squared distance at the array entry z = (i·2048 + y₀, j·1024 + y₁). -/
theorem point_entry (xs : (⟨2, ![8192, 512]⟩ : Shape).Idx → EReal) (ysT : (⟨2, ![512, 8192]⟩ : Shape).Idx → EReal)
    (A : Vec Ideal S2048x512 .f32) (B : Vec Ideal S512x1024 .f32) (i j : Nat) (hi : i ≤ 3) (hj : j ≤ 7)
    (hA : ∀ (p : Fin 2048) (k : Fin 512), A (ix2 p k) = xs (ix2 (⟨i * 2048 + p.val, by omega⟩ : Fin 8192) k))
    (hB : ∀ (k : Fin 512) (q : Fin 1024), B (ix2 k q) = ysT (ix2 k (⟨j * 1024 + q.val, by omega⟩ : Fin 8192)))
    (y : S2048x1024.Idx) (z : S8192x8192.Idx)
    (hz0 : (z 0).val = i * 2048 + (y 0).val) (hz1 : (z 1).val = j * 1024 + (y 1).val) :
    k0_pay1 (F := Ideal) A B y = distT xs ysT z := by
  obtain ⟨p, q, rfl⟩ : ∃ (p : Fin 2048) (q : Fin 1024), y = ix2 p q := ⟨y 0, y 1, eq_ix2 y⟩
  have ez : z = ix2 (⟨i * 2048 + p.val, by omega⟩ : Fin 8192) (⟨j * 1024 + q.val, by omega⟩ : Fin 8192) :=
    funext fun a => Fin.ext (by match a with | ⟨0, _⟩ => exact hz0 | ⟨1, _⟩ => exact hz1)
  rw [pay_apply, ez, distT_ix2]
  unfold distTAt
  simp only [hA, hB]

/-- The printed index maps over the grid: the first input follows the output's row block and stays at column block 0,
    the second stays at row block 0 and follows the output's column block; the output's block indices are in range. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 3 ∧ win0_2.index t (1 : Fin 2) ≤ 7 :=
  (by decide +kernel : ∀ t : Fin grid0.N, _)

/-- Every pair of block indices is some point's. -/
theorem index_onto : ∀ (q0 : Fin 4) (q1 : Fin 8), ∃ t : Fin cfg0.N, win0_2.index t = ![q0.val, q1.val] :=
  (by decide +kernel : ∀ (q0 : Fin 4) (q1 : Fin 8), ∃ t : Fin grid0.N, win0_2.index t = ![q0.val, q1.val])

/-- What point t writes back is block t of the squared-distance matrix of the two staged arrays. -/
theorem flushed_eq (c : Dev nD) (t : Fin cfg0.N) :
    (dats m 0 c).flushed 2 t
      = ((cfg0.win 2).blk t).view.read (Elt Ideal) (distT (V m c main_v3) (V m c main_v7)) := by
  rw [Cert.KernelIdeal.Value.flushed2]
  unfold out0_2
  rw [View.canon_unit_zero zero_offsets]
  simp only [View.ld_unit_zero (S := S2048x512) zero_offsets, View.ld_unit_zero (S := S512x1024) zero_offsets]
  obtain ⟨e0, e1, e2, e3, e4, e5⟩ := index_facts t
  funext y
  show k0_pay1 (F := Ideal) (iblk m c 0 t) (iblk m c 1 t) y
      = distT (V m c main_v3) (V m c main_v7) (((cfg0.win 2).blk t).view.emb y)
  refine point_entry (V m c main_v3) (V m c main_v7) (iblk m c 0 t) (iblk m c 1 t)
    (win0_2.index t (0 : Fin 2)) (win0_2.index t (1 : Fin 2)) e4 e5 ?_ ?_ y _ ?_ ?_
  · intro p k
    show V m c main_v3 (((cfg0.win 0).blk t).view.emb (ix2 p k)) = V m c main_v3 _
    refine congrArg (V m c main_v3) (funext fun a => Fin.ext ?_)
    match a with
    | ⟨0, _⟩ => show win0_0.index t (0 : Fin 2) * 2048 + 1 * p.val = win0_2.index t (0 : Fin 2) * 2048 + p.val; omega
    | ⟨1, _⟩ => show win0_0.index t (1 : Fin 2) * 512 + 1 * k.val = k.val; omega
  · intro k q
    show V m c main_v7 (((cfg0.win 1).blk t).view.emb (ix2 k q)) = V m c main_v7 _
    refine congrArg (V m c main_v7) (funext fun a => Fin.ext ?_)
    match a with
    | ⟨0, _⟩ => show win0_1.index t (0 : Fin 2) * 512 + 1 * k.val = k.val; omega
    | ⟨1, _⟩ => show win0_1.index t (1 : Fin 2) * 1024 + 1 * q.val = win0_2.index t (1 : Fin 2) * 1024 + q.val; omega
  · show win0_2.index t (0 : Fin 2) * 2048 + 1 * (y 0).val = win0_2.index t (0 : Fin 2) * 2048 + (y 0).val; omega
  · show win0_2.index t (1 : Fin 2) * 1024 + 1 * (y 1).val = win0_2.index t (1 : Fin 2) * 1024 + (y 1).val; omega

/-- An index of the result is in point t's block iff each coordinate is in the block's range on its axis. -/
theorem mem_block (t : Fin cfg0.N) (i : S8192x8192.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v8).slice (win0_2.rect t)).set ↔ _
  rw [View.set_slice_whole, Rect.mem_set_unit]
  exact Iff.rfl

/-- The blocks tile the result: entry (r, s) lies in the block of point (r / 2048, s / 1024). -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := index_onto ⟨(i 0).val / 2048, by omega⟩ ⟨(i 1).val / 1024, by omega⟩
  have q0 : win0_2.index t (0 : Fin 2) = (i 0).val / 2048 := congrFun ht 0
  have q1 : win0_2.index t (1 : Fin 2) = (i 1).val / 1024 := congrFun ht 1
  refine ⟨t, flush0_2 t, ?_⟩
  rw [mem_block]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 1024 ≤ (i 1).val ∧ (i 1).val < win0_2.index t (1 : Fin 2) * 1024 + 1024
    omega

/-- The result array after the run is the squared-distance matrix of the two staged arrays. -/
theorem result_array (c : Dev nD) :
    (dats m 0 c).arrAt 2 cfg0.N = distT (V m c main_v3) (V m c main_v7) :=
  (dats m 0 c).arrAt_eq_of_cover 2 _ (fun t _ => flushed_eq m c t) covered

end Cert.Dist

end
-- ==== Proof.HostArrays.lean ====
/-
  The two arrays the kernel's region reads, as the host operations before it leave them.

  The first is the first argument matrix times the exponentiated scale vector repeated down the rows; the second is
  the second argument matrix scaled the same way and then transposed to [512, 8192].
-/
import proofs.«146422_j3058016715341_1_alg».proof.Proof.Gen.KernelIdeal.Frame
import Idealize.ShloMosaic.Lib.StableHlo.Run
import Idealize.ShloMosaic.PureOps.Ideal

noncomputable section

namespace Cert.Dist

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- An argument matrix scaled: each column k multiplied by the exponential of the scale vector's entry k. -/
abbrev scaledK (a : S8192x512.Idx → EReal) (l : S512.Idx → EReal) : S8192x512.Idx → EReal :=
  mulf (F := Ideal) (φ := .f32) a (broadcastInDim S8192x512 ![0, 1] bcast_S1x512_S8192x512_0_1
    (broadcastInDim S1x512 ![1] bcast_S512_S1x512_1 (Host.exp (F := Ideal) (φ := .f32) l)))

/-- The first staged array is the scaled first argument. -/
theorem V_xs (c : Dev nD) :
    (V m c main_v3 : S8192x512.Idx → EReal)
      = scaledK (m ((c : Thread nD τ).loc main_arg0)) (m ((c : Thread nD τ).loc main_arg2)) := by
  dsimp only [Gen.V, Gen.hostOps0]
  after_results

/-- The second staged array is the transpose of the scaled second argument. -/
theorem V_ysT (c : Dev nD) :
    (V m c main_v7 : S512x8192.Idx → EReal)
      = transpose S512x8192 [1, 0] (scaledK (m ((c : Thread nD τ).loc main_arg1)) (m ((c : Thread nD τ).loc main_arg2)))
          transposes_S8192x512_S512x8192_1_0 := by
  dsimp only [Gen.V, Gen.hostOps0]
  after_results

end Cert.Dist

end
-- ==== Proof.KernelValue.lean ====
/-
  The kernel's run, with its result named from the argument arrays.

  The result array after the run is the squared-distance matrix of the two staged arrays, the second read transposed;
  the staged arrays are the scaled first argument and the transpose of the scaled second argument; and reading a
  matrix through its transpose and back is reading the matrix. So the result is the squared-distance matrix of the two
  scaled arguments.
-/
import proofs.«146422_j3058016715341_1_alg».proof.Proof.Blocks
import proofs.«146422_j3058016715341_1_alg».proof.Proof.HostArrays

noncomputable section

namespace Cert.Dist

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The squared-distance matrix of the scaled first and second arguments. -/
abbrev kernelResult (c : Dev nD) : S8192x8192.Idx → EReal :=
  dist (scaledK (m ((c : Thread nD τ).loc main_arg0)) (m ((c : Thread nD τ).loc main_arg2)))
    (scaledK (m ((c : Thread nD τ).loc main_arg1)) (m ((c : Thread nD τ).loc main_arg2)))

/-- The result array after the run, from the argument arrays. -/
theorem result_of_args (c : Dev nD) : (dats m 0 c).arrAt 2 cfg0.N = kernelResult m c := by
  rw [result_array]
  show distT (V m c main_v3 : S8192x512.Idx → EReal) (V m c main_v7 : S512x8192.Idx → EReal) = _
  rw [V_xs, V_ysT]
  exact distT_transpose _ _ _

/-- Every weakly fair execution of the idealized kernel terminates with the result at the squared-distance matrix of the
    scaled arguments, the arguments unchanged. -/
theorem kernel_run : θ_run defs (onTc (τ := τ) (main (F := Ideal))) ⟨m, fun _ => 0, ρ⟩ fun r => ∀ c : Dev nD,
      r.2.mem ((c : Thread nD τ).loc main_v8) = kernelResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (result_of_args m c), (h c).2⟩)
    (Cert.KernelIdeal.Value.run_blocks m ρ)

end Cert.Dist

end
-- ==== Proof.RefValue.lean ====
/-
  The reference's result, stage by stage, is the squared-distance matrix of the two scaled arrays.

  With xs and ys the arrays the reference forms first (each argument matrix times the exponentiated scale, repeated
  down the rows), the difference it computes at entry (n, m) is
      (0 + Σ_k xs(n,k)² + (0 + Σ_k ys(m,k)²)) − 2 · Σ_k xs(n,k) · ys(m,k)
  — each host sum its initial value, the extended real zero, plus the sum over the row; the product's right
  operand the transpose of ys read back at (m, k) — and its returned value max(d, 0) · 0 + d is that d.
-/
import proofs.«146422_j3058016715341_1_alg».proof.Proof.Gen.ReferenceIdeal.Read
import proofs.«146422_j3058016715341_1_alg».proof.Proof.Spec

noncomputable section

namespace Cert.Dist

open Idealize.ShloMosaic Idealize.ShloMosaic.ValueIdx Cert.ReferenceIdeal Cert.ReferenceIdeal.Gen Cert.ReferenceIdeal.Read

/-- The subtraction stage at entry (n, m). -/
theorem ref_diff_apply (x0 x1 : (⟨S8192x512, .f32⟩ : BufTy).Contents (Elt Ideal)) (x2 : (⟨S512, .f32⟩ : BufTy).Contents (Elt Ideal))
    (n m : Fin 8192) :
    val_main_v20 (F := Ideal) x0 x1 x2 (ix2 n m)
      = distAt (val_main_v3 (F := Ideal) x0 x2) (val_main_v6 (F := Ideal) x1 x2) n m := by
  have e8 : ∀ k : Fin 512, idx_main_v8 (idx_main_v13 (idx_main_v15 (ix2 n m))) k = ix2 n k := fun k =>
    funext fun a => Fin.ext (by match a with | ⟨0, _⟩ => rfl | ⟨1, _⟩ => rfl)
  have e10 : ∀ k : Fin 512, idx_main_v10 (idx_main_v14 (idx_main_v16 (ix2 n m))) k = ix2 m k := fun k =>
    funext fun a => Fin.ext (by match a with | ⟨0, _⟩ => rfl | ⟨1, _⟩ => rfl)
  have el : ∀ k : Fin 512, lidx_main_v12 (ix2 n m) k = ix2 n k := fun k =>
    funext fun a => Fin.ext (by match a with | ⟨0, _⟩ => rfl | ⟨1, _⟩ => rfl)
  have er : ∀ k : Fin 512, idx_main_v11 (ridx_main_v12 (ix2 n m) k) = ix2 m k := fun k =>
    funext fun a => Fin.ext (by match a with | ⟨0, _⟩ => rfl | ⟨1, _⟩ => rfl)
  rw [val_main_v20_apply, val_main_v17_apply, val_main_v19_apply, val_main_v15_apply, val_main_v13_apply, val_main_v8_apply,
    val_main_v16_apply, val_main_v14_apply, val_main_v10_apply, val_main_v18_apply, val_main_cst_1_apply, val_main_v12_apply]
  simp only [val_main_v7_apply, val_main_v9_apply, val_main_v11_apply, val_main_cst_apply, val_main_cst_0_apply,
    e8, e10, el, er, Ideal.addf_def, Ideal.subf_def, Ideal.mulf_def, Ideal.ofBits_def, Ideal.ofBits_zero_f32, zero_add]
  rfl

/-- The returned stage is the subtraction stage: max(d, 0) · 0 + d = d. -/
theorem ref_result_eq_diff (x0 x1 : (⟨S8192x512, .f32⟩ : BufTy).Contents (Elt Ideal)) (x2 : (⟨S512, .f32⟩ : BufTy).Contents (Elt Ideal)) :
    val_main_v25 (F := Ideal) x0 x1 x2 = val_main_v20 (F := Ideal) x0 x1 x2 := by
  funext i
  rw [val_main_v25_apply, val_main_v24_apply, val_main_v22_apply, val_main_v23_apply, val_main_cst_3_apply,
    val_main_v21_apply, val_main_cst_2_apply]
  simp only [Ideal.addf_def, Ideal.mulf_def, Ideal.maximumf_def, Ideal.ofBits_def, Ideal.ofBits_zero_f32]
  exact clamp_times_zero_add _

/-- The reference's result is the squared-distance matrix of its two scaled arrays. -/
theorem ref_result (x0 x1 : (⟨S8192x512, .f32⟩ : BufTy).Contents (Elt Ideal)) (x2 : (⟨S512, .f32⟩ : BufTy).Contents (Elt Ideal)) :
    val_main_v25 (F := Ideal) x0 x1 x2 = dist (val_main_v3 (F := Ideal) x0 x2) (val_main_v6 (F := Ideal) x1 x2) := by
  rw [ref_result_eq_diff]
  funext i
  rw [eq_ix2 i]
  exact ref_diff_apply x0 x1 x2 (i 0) (i 1)

end Cert.Dist

end
-- ==== Proof.lean ====
/-
  The squared distances between the rows of two scaled matrices: a tiled kernel against the plain formula.

  Both programs first scale the two [8192, 512] argument matrices column by column with the exponential of a
  [512] vector. The kernel then computes, tile by tile over a 4 × 8 grid, for rows n of the first and m of the
  second scaled matrix,
      (Σ_k xs(n,k)² + Σ_k ys(m,k)²) − 2 · Σ_k xs(n,k) · ys(m,k),
  reading the second matrix transposed and taking the cross term as a matrix product whose operands it first narrows
  to a shorter float format. On the extended reals the narrowing is the identity and a product into a zero accumulator
  is the plain sum, so every tile is a block of one [8192, 8192] function of the scaled matrices, and the 32 tiles
  cover it. The reference forms the same three sums with the same grouping and returns max(d, 0) · 0 + d, which is d
  at every extended real because a product with zero is zero. Neither step needs the inputs to be finite.

  The three frames are the generated ones (the reference's is its run with the result dropped); the idealization
  rewrote nothing, so there is nothing to preserve.
-/
import proofs.«146422_j3058016715341_1_alg».proof.Defs
import proofs.«146422_j3058016715341_1_alg».proof.Proof.Gen.Kernel
import proofs.«146422_j3058016715341_1_alg».proof.Proof.Gen.Kernel.Skeleton
import proofs.«146422_j3058016715341_1_alg».proof.Proof.Gen.Kernel.Launch
import proofs.«146422_j3058016715341_1_alg».proof.Proof.Gen.Kernel.Points
import proofs.«146422_j3058016715341_1_alg».proof.Proof.Gen.Kernel.Frame
import proofs.«146422_j3058016715341_1_alg».proof.Proof.Gen.KernelIdeal
import proofs.«146422_j3058016715341_1_alg».proof.Proof.Gen.KernelIdeal.Skeleton
import proofs.«146422_j3058016715341_1_alg».proof.Proof.Gen.KernelIdeal.Launch
import proofs.«146422_j3058016715341_1_alg».proof.Proof.Gen.KernelIdeal.Points
import proofs.«146422_j3058016715341_1_alg».proof.Proof.Gen.KernelIdeal.Frame
import proofs.«146422_j3058016715341_1_alg».proof.Proof.Gen.ReferenceIdeal
import proofs.«146422_j3058016715341_1_alg».proof.Proof.Gen.Pre_finite_inputs
import proofs.«146422_j3058016715341_1_alg».proof.Proof.Gen.KernelIdeal.Value
import proofs.«146422_j3058016715341_1_alg».proof.Proof.Gen.ReferenceIdeal.Run
import proofs.«146422_j3058016715341_1_alg».proof.Proof.Gen.ReferenceIdeal.Read
import proofs.«146422_j3058016715341_1_alg».proof.Proof.KernelValue
import proofs.«146422_j3058016715341_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the squared-distance matrix of the scaled
    arguments: the kernel by its blocks, the reference by its stages. -/
theorem algebraic : Cert.algebraic_KernelIdeal_ReferenceIdeal := by
  intro m ρ m' ρ' _ hagree
  refine ⟨fun c => Cert.Dist.kernelResult m c, Cert.Dist.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.Dist.ref_result, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
